-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S496x1024 : Shape := ⟨2, ![496, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S496x1024 : S_.BroadcastsInDim S496x1024 (![] : Fin 0 → Fin S496x1024.rank)
  reducesTo_S496x1024_S_d0_1 : S496x1024.ReducesTo [0, 1] S_

variable [Facts]

def fn {F : FTy → Type} [FloatOps F] (main_arg0 : FVec F S65536x1024 .f32) (main_arg1 : FVec F S496x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S496x1024 .f32 := Host.absf main_arg1
  let main_cst_0 : FVec F S_ .f32 := constant S_ .f32 0x7F800000#32
  let main_v5 : FVec F S496x1024 .f32 := broadcastInDim S496x1024 ![] bcast_S_S496x1024 main_cst_0
  let main_v6 : IVec S496x1024 1 := cmpf .olt main_v4 main_v5
  let main_c_1 : IVec S_ 1 := constantI S_ 1 1#1
  let main_v7 : IVec S_ 1 := (fun x v => Host.reduce IntOp.andi x v reducesTo_S496x1024_S_d0_1 h_S_) main_v6 main_c_1
  let main_v8 : IVec S_ 1 := andi main_v3 main_v7
  main_v8
-- ==== Kernel.lean ====
abbrev S65536x1024 : Shape := ⟨2, ![65536, 1024]⟩
abbrev S496x1024 : Shape := ⟨2, ![496, 1024]⟩
abbrev S1024x496 : Shape := ⟨2, ![1024, 496]⟩
abbrev S65536x496 : Shape := ⟨2, ![65536, 496]⟩
abbrev S2048x1024 : Shape := ⟨2, ![2048, 1024]⟩
abbrev S2048x496 : Shape := ⟨2, ![2048, 496]⟩

abbrev nBuf : Space → Nat
  | .hbm => 5
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S496x1024, .f32⟩
  | .hbm, ⟨2, _⟩ => ⟨S1024x496, .f32⟩
  | .hbm, ⟨3, _⟩ => ⟨S1024x496, .bf16⟩
  | .hbm, ⟨4, _⟩ => ⟨S65536x496, .f32⟩
  | .local _ .vmem, ⟨0, _⟩ => ⟨S2048x1024, .f32⟩
  | .local _ .vmem, ⟨1, _⟩ => ⟨S2048x1024, .f32⟩
  | .local _ .vmem, ⟨2, _⟩ => ⟨S1024x496, .bf16⟩
  | .local _ .vmem, ⟨3, _⟩ => ⟨S2048x496, .f32⟩
  | .local _ .vmem, ⟨4, _⟩ => ⟨S2048x496, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x496 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x496 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S496x1024_S1024x496_1_0 : S496x1024.Transposes [1, 0] S1024x496
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1024x496_S1024x496_0_0 : ∀ a, (![0, 0] : Fin 2 → Nat) a + S1024x496.size a ≤ S1024x496.size a
  h_S1024x496 : 0 < S1024x496.numel
  shapeCasts_S1024x496_S1024x496 : S1024x496.ShapeCasts S1024x496
  inb_S2048x496_S2048x496_0_0 : ∀ a, (![0, 0] : Fin 2 → Nat) a + S2048x496.size a ≤ S2048x496.size a
  h_S2048x496 : 0 < S2048x496.numel
  dot_S2048x1024_S1024x496_S2048x496_1_0_0_1_n_n_wf : DotDims.WF S2048x1024 S1024x496 S2048x496 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x496.size a ≤ S1024x496.size a
  hwx0_1 : ∀ i : grid0.Coords, EltTy.bits .bf16 = 32 ∨ (Rect.block (s := S1024x496) S1024x496.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x496.size a ≤ S65536x496.size a
  hwx0_2 : ∀ i : grid0.Coords, EltTy.bits .f32 = 32 ∨ (Rect.block (s := S65536x496) S2048x496.size (cc0_transform_2 i) (hinb0_2 i)).WholeWords (EltTy.packing .f32)

variable [Facts₀]

def dot_S2048x1024_S1024x496_S2048x496_1_0_0_1_n_n : DotDims S2048x1024 S1024x496 S2048x496 where
  lhsContracting := [1]
  rhsContracting := [0]
  lhsNonContracting := [0]
  rhsNonContracting := [1]
  lhsBatch := []
  rhsBatch := []
  wf := dot_S2048x1024_S1024x496_S2048x496_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x496.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x496.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S496x1024 : Shape := ⟨2, ![496, 1024]⟩
abbrev S65536x496 : Shape := ⟨2, ![65536, 496]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S496x1024, .f32⟩
  | .hbm, ⟨2, _⟩ => ⟨S65536x1024, .f32⟩
  | .hbm, ⟨3, _⟩ => ⟨S65536x496, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S65536x1024_S496x1024_S65536x496_1_1_0_0_n_n_wf : DotDims.WF S65536x1024 S496x1024 S65536x496 [1] [1] [0] [0] [] []

variable [Facts₀]

def dot_S65536x1024_S496x1024_S65536x496_1_1_0_0_n_n : DotDims S65536x1024 S496x1024 S65536x496 where
  lhsContracting := [1]
  rhsContracting := [1]
  lhsNonContracting := [0]
  rhsNonContracting := [0]
  lhsBatch := []
  rhsBatch := []
  wf := dot_S65536x1024_S496x1024_S65536x496_1_1_0_0_n_n_wf

class Facts : Prop extends Facts₀ where

variable [Facts]
-- ==== Proof.PoolSpec.lean ====
/-
  The function both programs compute, stated once over the literal shapes.

  For a batch of row vectors `x : [65536, 1024]` and a selector table `T : [496, 1024]`, the pooled output at
  `(b, r)` is the sum over the 1024 amplitudes `n` of the SQUARED amplitude `x[b, n] * x[b, n]` times the
  selector entry `T[r, n]`.  The factors are kept in exactly this order and grouping, `(x * x) * T`, which is
  the order in which both a matrix product of the squares with the transposed table and a contraction of the
  squares against the table's second axis present them: no commutation and no finiteness is needed to join the
  two sides, only a renaming of indices.
-/
import Idealize.ShloMosaic.Lib.ValueIdx
import Idealize.ShloMosaic.PureOps.Ideal

noncomputable section

namespace Cert.Pool

open Idealize.ShloMosaic Idealize.ShloMosaic.ValueIdx

/-- The batch of amplitude rows. -/
abbrev SX : Shape := ⟨2, ![65536, 1024]⟩
/-- The selector table, one row per pooled output. -/
abbrev ST : Shape := ⟨2, ![496, 1024]⟩
/-- The pooled output. -/
abbrev SO : Shape := ⟨2, ![65536, 496]⟩

/-- `pooled x T (b, r) = ∑ n, (x[b, n] * x[b, n]) * T[r, n]` on the extended reals. -/
def pooled (x : SX.Idx → EReal) (T : ST.Idx → EReal) : SO.Idx → EReal :=
  fun i => ∑ n : Fin 1024, (x (ix2 (⟨(i 0).val, (i 0).isLt⟩ : Fin 65536) n) * x (ix2 (⟨(i 0).val, (i 0).isLt⟩ : Fin 65536) n))
    * T (ix2 (⟨(i 1).val, (i 1).isLt⟩ : Fin 496) n)

/-- The same at an output index given by its two coordinates. -/
theorem pooled_ix2 (x : SX.Idx → EReal) (T : ST.Idx → EReal) (b : Fin 65536) (r : Fin 496) :
    pooled x T (ix2 b r) = ∑ n : Fin 1024, (x (ix2 b n) * x (ix2 b n)) * T (ix2 r n) := rfl

end Cert.Pool

end
-- ==== Proof.RefPool.lean ====
/-
  The reference computes the pooled sum.

  The reference first squares every amplitude, then contracts the squares' second axis against the table's second
  axis.  Read at an output index `(b, r)` that contraction is the sum over `n` of the square at `(b, n)` times the
  table at `(r, n)`: the pooled sum itself, once the contraction's operand indices are recognised as `(b, n)` and
  `(r, n)`.
-/
import proofs.«430539_j37323265802669_3_alg».proof.Proof.Gen.ReferenceIdeal.Read
import proofs.«430539_j37323265802669_3_alg».proof.Proof.PoolSpec

noncomputable section

namespace Cert.Pool.Ref

open Idealize.ShloMosaic Idealize.ShloMosaic.ValueIdx Cert.ReferenceIdeal Cert.Pool

/-- The left operand of the contraction is read at `(b, n)`. -/
theorem lidx_eq (i : S65536x496.Idx) (n : Fin 1024) :
    Read.lidx_main_v1 i n = ix2 (⟨(i 0).val, (i 0).isLt⟩ : Fin 65536) n :=
  funext fun a => Fin.ext (by match a with | ⟨0, _⟩ => rfl | ⟨1, _⟩ => rfl)

/-- The right operand of the contraction is read at `(r, n)`. -/
theorem ridx_eq (i : S65536x496.Idx) (n : Fin 1024) :
    Read.ridx_main_v1 i n = ix2 (⟨(i 1).val, (i 1).isLt⟩ : Fin 496) n :=
  funext fun a => Fin.ext (by match a with | ⟨0, _⟩ => rfl | ⟨1, _⟩ => rfl)

/-- The reference's result, as a function of its two arguments, is the pooled sum. -/
theorem reference_eq_pooled (x : (⟨S65536x1024, .f32⟩ : BufTy).Contents (Elt Ideal))
    (T : (⟨S496x1024, .f32⟩ : BufTy).Contents (Elt Ideal)) :
    Read.val_main_v1 (F := Ideal) x T = pooled x T := by
  funext i
  rw [Read.val_main_v1_apply]
  refine Finset.sum_congr rfl fun n _ => ?_
  rw [Read.val_main_v0_apply, lidx_eq, ridx_eq]
  rfl

end Cert.Pool.Ref

end
-- ==== Proof.BlockProduct.lean ====
/-
  One grid step's block product, read at an entry.

  A grid step holds 2048 amplitude rows `X : [2048, 1024]` and the whole transposed table `W : [1024, 496]`.  It
  squares `X` entry by entry (the change of float format before the square is the identity on the extended reals)
  and multiplies the squares by `W` into a zero accumulator.  Read at `(p, q)` the result is therefore the plain
  sum over `n` of `(X[p, n] * X[p, n]) * W[n, q]`: the matrix product's operand indices at output `(p, q)` and
  contraction index `n` are `(p, n)` on the left and `(n, q)` on the right.
-/
import proofs.«430539_j37323265802669_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.Pool.Block

open Idealize.ShloMosaic Idealize.ShloMosaic.ValueIdx Cert.KernelIdeal Cert.KernelIdeal.Gen

/-- The left operand's row coordinate is the output's row. -/
theorem lhs_row (i : S2048x496.Idx) (q : dot_S2048x1024_S1024x496_S2048x496_1_0_0_1_n_n.contr.Idx) :
    (dot_S2048x1024_S1024x496_S2048x496_1_0_0_1_n_n.lhsIdx i q 0).val = (i 0).val := by
  unfold DotDims.lhsIdx
  rw [dif_neg (show ¬(0 : Fin S2048x1024.rank) ∈ dot_S2048x1024_S1024x496_S2048x496_1_0_0_1_n_n.lhsBatch by decide), dif_pos (show (0 : Fin S2048x1024.rank) ∈ dot_S2048x1024_S1024x496_S2048x496_1_0_0_1_n_n.lhsNonContracting by decide)]
  rfl

/-- The left operand's column coordinate is the contraction index. -/
theorem lhs_col (i : S2048x496.Idx) (q : dot_S2048x1024_S1024x496_S2048x496_1_0_0_1_n_n.contr.Idx) :
    (dot_S2048x1024_S1024x496_S2048x496_1_0_0_1_n_n.lhsIdx i q 1).val = (q ⟨0, by decide⟩).val :=
  dot_S2048x1024_S1024x496_S2048x496_1_0_0_1_n_n.lhsIdx_val_of_single rfl i q

/-- The right operand's row coordinate is the contraction index. -/
theorem rhs_row (i : S2048x496.Idx) (q : dot_S2048x1024_S1024x496_S2048x496_1_0_0_1_n_n.contr.Idx) :
    (dot_S2048x1024_S1024x496_S2048x496_1_0_0_1_n_n.rhsIdx i q 0).val = (q ⟨0, by decide⟩).val :=
  dot_S2048x1024_S1024x496_S2048x496_1_0_0_1_n_n.rhsIdx_val_of_single rfl i q

/-- The right operand's column coordinate is the output's column. -/
theorem rhs_col (i : S2048x496.Idx) (q : dot_S2048x1024_S1024x496_S2048x496_1_0_0_1_n_n.contr.Idx) :
    (dot_S2048x1024_S1024x496_S2048x496_1_0_0_1_n_n.rhsIdx i q 1).val = (i 1).val := by
  unfold DotDims.rhsIdx
  rw [dif_neg (show ¬(1 : Fin S1024x496.rank) ∈ dot_S2048x1024_S1024x496_S2048x496_1_0_0_1_n_n.rhsBatch by decide), dif_pos (show (1 : Fin S1024x496.rank) ∈ dot_S2048x1024_S1024x496_S2048x496_1_0_0_1_n_n.rhsNonContracting by decide)]
  rfl

/-- A product of two blocks into the zero accumulator, read at `(p, q)`: the sum over the contraction index `n` of the
    left block at `(p, n)` times the right block at `(n, q)`. -/
theorem product_apply (L : FVec Ideal S2048x1024 .bf16) (R : FVec Ideal S1024x496 .bf16) (p : Fin 2048) (q : Fin 496) :
    matmul dot_S2048x1024_S1024x496_S2048x496_1_0_0_1_n_n none L R (constant S2048x496 .f32 0x00000000#32) (ix2 p q)
      = ∑ n : Fin 1024, L (ix2 p n) * R (ix2 n q) := by
  simp only [matmul]
  rw [Ideal.matmul_constant_zero_apply, ← Equiv.sum_comp (ValueIdx.contrEquiv1 dot_S2048x1024_S1024x496_S2048x496_1_0_0_1_n_n 1024 rfl rfl).symm]
  refine Finset.sum_congr rfl fun n _ => ?_
  have hn := ValueIdx.contrEquiv1_symm_val dot_S2048x1024_S1024x496_S2048x496_1_0_0_1_n_n 1024 rfl rfl n
  have el : dot_S2048x1024_S1024x496_S2048x496_1_0_0_1_n_n.lhsIdx (ix2 p q) ((ValueIdx.contrEquiv1 dot_S2048x1024_S1024x496_S2048x496_1_0_0_1_n_n 1024 rfl rfl).symm n) = ix2 p n := funext fun a => Fin.ext (by
    match a with
    | ⟨0, _⟩ => exact lhs_row _ _
    | ⟨1, _⟩ => exact (lhs_col _ _).trans hn)
  have er : dot_S2048x1024_S1024x496_S2048x496_1_0_0_1_n_n.rhsIdx (ix2 p q) ((ValueIdx.contrEquiv1 dot_S2048x1024_S1024x496_S2048x496_1_0_0_1_n_n 1024 rfl rfl).symm n) = ix2 n q := funext fun a => Fin.ext (by
    match a with
    | ⟨0, _⟩ => exact (rhs_row _ _).trans hn
    | ⟨1, _⟩ => exact rhs_col _ _)
  rw [el, er]

/-- What a grid step stores, read at `(p, q)`: the sum over `n` of the squared amplitude at `(p, n)` times the
    transposed table at `(n, q)`. -/
theorem step_apply (X : Vec Ideal S2048x1024 .f32) (W : Vec Ideal S1024x496 .bf16) (p : Fin 2048) (q : Fin 496) :
    k0_pay1 (F := Ideal) X W (ix2 p q) = ∑ n : Fin 1024, (X (ix2 p n) * X (ix2 p n)) * W (ix2 n q) := by
  unfold k0_pay1
  refine (product_apply _ _ p q).trans ?_
  refine Finset.sum_congr rfl fun n _ => ?_
  rw [shapeCast_self]
  rfl

end Cert.Pool.Block

end
-- ==== Proof.KernelValue.lean ====
/-
  The kernel's output array is the pooled sum.

  The grid has 32 steps.  Step `t` holds amplitude rows `2048 t … 2048 t + 2047` (all 1024 columns) and, at every
  step, the WHOLE transposed table, which the host prepared before the launch by transposing the selector table
  (the change of float format after the transpose is the identity on the extended reals): its entry `(n, r)` is the
  selector's entry `(r, n)`.  The step writes back rows `2048 t … 2048 t + 2047` of the output (all 496 columns),
  and what it writes at local position `(p, q)` is the block product read there: the sum over `n` of the squared
  amplitude at row `2048 t + p`, column `n`, times the selector at `(q, n)` — the pooled sum at output
  `(2048 t + p, q)`.  The 32 row bands tile the output, the band of row `b` being step `b / 2048`, so the whole
  output array ends holding the pooled sum.
-/
import proofs.«430539_j37323265802669_3_alg».proof.Proof.Gen.KernelIdeal.Value
import proofs.«430539_j37323265802669_3_alg».proof.Proof.PoolSpec
import proofs.«430539_j37323265802669_3_alg».proof.Proof.BlockProduct
import Idealize.ShloMosaic.Lib.ValueLayout
import Idealize.ShloMosaic.Lib.StableHlo.Run

set_option maxRecDepth 16384

noncomputable section

namespace Cert.Pool.Kernel

open Idealize.ShloMosaic Idealize.ShloMosaic.TcCoe Idealize.SL.Sem Idealize.ShloMosaic.ValueIdx
open Idealize.ShloMosaic.StableHlo
open Cert.KernelIdeal Cert.KernelIdeal.Gen Cert.Pool
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## The transposed table the region finds -/

/-- The buffer the kernel stages as its second operand holds, when the region is entered, the selector table
    transposed (and converted, which changes nothing on the extended reals): its entry `(n, r)` is the selector's
    entry `(r, n)`. -/
theorem table_apply (c : Dev nD) (n : Fin 1024) (r : Fin 496) :
    V m c main_v1 (ix2 n r) = m ((c : Thread nD τ).loc main_arg1) (ix2 r n) := by
  have e : V m c main_v1 = (truncf (F := Ideal) .bf16 (transpose S1024x496 [1, 0] (m ((c : Thread nD τ).loc main_arg1))
      transposes_S496x1024_S1024x496_1_0) bitsLt_bf16_f32 : FVec Ideal S1024x496 .bf16) := by
    dsimp only [Gen.V, Gen.hostOps0]; after_results
  exact (congrFun e (ix2 n r)).trans
    (transpose_ix2_apply (m ((c : Thread nD τ).loc main_arg1)) transposes_S496x1024_S1024x496_1_0 n r)

/-! ## The index maps -/

/-- Decided over the 32 grid steps: the amplitude window and the output window sit on row band `t`, column band 0;
    the table window always sits on its one block. -/
theorem band_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- A grid step's number is below 32. -/
theorem step_lt (t : Fin cfg0.N) : t.val < 32 := lt_of_lt_of_eq t.isLt N_0

/-- The array row that local row `p` of step `t` stands for. -/
def rowOf (t : Fin cfg0.N) (p : Fin 2048) : Fin 65536 :=
  ⟨t.val * 2048 + p.val, by have := step_lt t; have := p.isLt; omega⟩

/-! ## The blocks a step holds -/

/-- The amplitude block of step `t` at `(p, n)` is the amplitude array at row `2048 t + p`, column `n`. -/
theorem amp_block (c : Dev nD) (t : Fin cfg0.N) (p : Fin 2048) (n : Fin 1024) :
    iblk m c 0 t (ix2 p n) = m ((c : Thread nD τ).loc main_arg0) (ix2 (rowOf t p) n) := by
  obtain ⟨e0, e1, e2, e3, e4, e5⟩ := band_facts t
  show V m c main_arg0 (((cfg0.win 0).blk t).view.emb (ix2 p n)) = _
  rw [V_main_arg0]
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 1024 + 1 * n.val = n.val; omega

/-- The table block of every step at `(n, r)` is the selector at `(r, n)`. -/
theorem table_block (c : Dev nD) (t : Fin cfg0.N) (n : Fin 1024) (r : Fin 496) :
    iblk m c 1 t (ix2 n r) = m ((c : Thread nD τ).loc main_arg1) (ix2 r n) := by
  obtain ⟨e0, e1, e2, e3, e4, e5⟩ := band_facts t
  show V m c main_v1 (((cfg0.win 1).blk t).view.emb (ix2 n r)) = _
  have he : ((cfg0.win 1).blk t).view.emb (ix2 n r) = ix2 n r := funext fun a => Fin.ext (by
    match a with
    | ⟨0, _⟩ => show win0_1.index t (0 : Fin 2) * 1024 + 1 * n.val = n.val; omega
    | ⟨1, _⟩ => show win0_1.index t (1 : Fin 2) * 496 + 1 * r.val = r.val; omega)
  rw [he]
  exact table_apply m c n r

/-- Local position `(p, q)` of the output block of step `t` is the output array's `(2048 t + p, q)`. -/
theorem out_pos (t : Fin cfg0.N) (p : Fin 2048) (q : Fin 496) :
    ((cfg0.win 2).blk t).view.emb (ix2 p q) = ix2 (rowOf t p) q := by
  obtain ⟨e0, e1, e2, e3, e4, e5⟩ := band_facts t
  refine funext fun a => Fin.ext ?_
  match a with
  | ⟨0, _⟩ => show win0_2.index t (0 : Fin 2) * 2048 + 1 * p.val = t.val * 2048 + p.val; omega
  | ⟨1, _⟩ => show win0_2.index t (1 : Fin 2) * 496 + 1 * q.val = q.val; omega

/-! ## What a step writes back -/

/-- Step `t` writes back row band `t` of the pooled sum of the argument arrays. -/
theorem flushed_eq (c : Dev nD) (t : Fin cfg0.N) :
    (dats m 0 c).flushed 2 t = ((cfg0.win 2).blk t).view.read (Elt Ideal)
      (pooled (m ((c : Thread nD τ).loc main_arg0)) (m ((c : Thread nD τ).loc main_arg1))) := by
  rw [Value.flushed2]
  unfold out0_2
  rw [View.canon_unit_zero origin]
  simp only [View.ld_unit_zero (S := S2048x1024) origin, View.ld_unit_zero (S := S1024x496) origin]
  funext j
  obtain ⟨p, q, rfl⟩ : ∃ (p : Fin 2048) (q : Fin 496), j = ix2 p q := ⟨j 0, j 1, eq_ix2 j⟩
  show k0_pay1 (F := Ideal) (iblk m c 0 t) (iblk m c 1 t) (ix2 p q)
    = pooled (m ((c : Thread nD τ).loc main_arg0)) (m ((c : Thread nD τ).loc main_arg1)) (((cfg0.win 2).blk t).view.emb (ix2 p q))
  rw [out_pos, pooled_ix2]
  refine (Block.step_apply (iblk m c 0 t) (iblk m c 1 t) p q).trans ?_
  refine Finset.sum_congr rfl fun n _ => ?_
  rw [amp_block m c t p n, table_block m c t n q]

/-! ## The row bands tile the output -/

/-- An index is in step `t`'s output block iff each coordinate is in the block's range on its axis. -/
theorem mem_band (t : Fin cfg0.N) (i : S65536x496.Idx) :
    i ∈ ((cfg0.win 2).blk t).view.set ↔ ∀ a : Fin 2, win0_2.index t a * S2048x496.size a ≤ (i a).val
      ∧ (i a).val < win0_2.index t a * S2048x496.size a + S2048x496.size a := by
  show i ∈ ((View.whole main_v2).slice (win0_2.rect t)).set ↔ _
  rw [View.set_slice_whole, Rect.mem_set_unit]
  exact Iff.rfl

/-- Every output index lies in the block of the step numbered by its row divided by 2048, and every step writes back. -/
theorem cover (i : S65536x496.Idx) :
    ∃ t : Fin cfg0.N, (cfg0.win 2).flush t = true ∧ i ∈ ((cfg0.win 2).blk t).view.set := by
  have hi0 : (i 0).val < 65536 := (i 0).isLt
  have hi1 : (i 1).val < 496 := (i 1).isLt
  have hN : (i 0).val / 2048 < cfg0.N := lt_of_lt_of_eq (by omega : (i 0).val / 2048 < 32) N_0.symm
  obtain ⟨e0, e1, e2, e3, e4, e5⟩ := band_facts ⟨(i 0).val / 2048, hN⟩
  refine ⟨⟨(i 0).val / 2048, hN⟩, flush0_2 _, ?_⟩
  rw [mem_band]
  intro a
  match a with
  | ⟨0, _⟩ =>
    show win0_2.index ⟨(i 0).val / 2048, hN⟩ (0 : Fin 2) * 2048 ≤ (i 0).val
      ∧ (i 0).val < win0_2.index ⟨(i 0).val / 2048, hN⟩ (0 : Fin 2) * 2048 + 2048
    rw [e4]; show (i 0).val / 2048 * 2048 ≤ (i 0).val ∧ (i 0).val < (i 0).val / 2048 * 2048 + 2048; omega
  | ⟨1, _⟩ =>
    show win0_2.index ⟨(i 0).val / 2048, hN⟩ (1 : Fin 2) * 496 ≤ (i 1).val
      ∧ (i 1).val < win0_2.index ⟨(i 0).val / 2048, hN⟩ (1 : Fin 2) * 496 + 496
    rw [e5]; omega

/-! ## The output array, and the run -/

/-- After the last step the output array holds the pooled sum of the argument arrays. -/
theorem final (c : Dev nD) : (dats m 0 c).arrAt 2 cfg0.N
    = pooled (m ((c : Thread nD τ).loc main_arg0)) (m ((c : Thread nD τ).loc main_arg1)) :=
  (dats m 0 c).arrAt_eq_of_cover 2 _ (fun t _ => flushed_eq m c t) cover

/-- Every weakly fair execution of the idealized kernel terminates with its result at the pooled sum of its
    arguments, the arguments unchanged. -/
theorem run : θ_run defs (onTc (τ := τ) (main (F := Ideal))) ⟨m, fun _ => 0, ρ⟩ fun r => ∀ c : Dev nD,
      r.2.mem ((c : Thread nD τ).loc main_v2)
        = pooled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Pool.Kernel

end
-- ==== Proof.lean ====
/-
  The certificate of a squared-amplitude pooling kernel against its contraction reference.

  Both programs take a batch of amplitude rows `x : [65536, 1024]` and a selector table `T : [496, 1024]` and return
  `out[b, r] = ∑ n, (x[b, n] * x[b, n]) * T[r, n]`.

  The kernel transposes the table on the host, then runs 32 grid steps; step `t` squares rows
  `2048 t … 2048 t + 2047` of `x` and multiplies them by the transposed table into a zero accumulator, writing row
  band `t` of the output.  Its two changes of float format are the identity on the extended reals.  The reference
  squares `x` and contracts the second axis of the squares against the second axis of `T`.  On the extended reals
  the two are the SAME sum, term by term and factor by factor (the transposed table at `(n, r)` is the table at
  `(r, n)`), so no algebraic law beyond the renaming of indices joins them, and the finiteness precondition is
  never opened.

  * `PoolSpec` states the pooled sum; `RefPool` shows the reference's result is it; `BlockProduct` reads one grid
    step's product at an entry; `KernelValue` shows each step writes back its row band of the pooled sum, that the
    bands tile the output, and hence that the kernel's result array is the pooled sum.
  * The three frames: the two kernels' are the generated frame certificates; the reference's is its generated run
    with the result forgotten.
  * The idealization rewrote nothing, so the `preserves` conjunct is `True`.
-/
import proofs.«430539_j37323265802669_3_alg».proof.Defs
import proofs.«430539_j37323265802669_3_alg».proof.Proof.Gen.Kernel
import proofs.«430539_j37323265802669_3_alg».proof.Proof.Gen.Kernel.Skeleton
import proofs.«430539_j37323265802669_3_alg».proof.Proof.Gen.Kernel.Launch
import proofs.«430539_j37323265802669_3_alg».proof.Proof.Gen.Kernel.Points
import proofs.«430539_j37323265802669_3_alg».proof.Proof.Gen.Kernel.Frame
import proofs.«430539_j37323265802669_3_alg».proof.Proof.Gen.KernelIdeal
import proofs.«430539_j37323265802669_3_alg».proof.Proof.Gen.KernelIdeal.Skeleton
import proofs.«430539_j37323265802669_3_alg».proof.Proof.Gen.KernelIdeal.Launch
import proofs.«430539_j37323265802669_3_alg».proof.Proof.Gen.KernelIdeal.Points
import proofs.«430539_j37323265802669_3_alg».proof.Proof.Gen.KernelIdeal.Frame
import proofs.«430539_j37323265802669_3_alg».proof.Proof.Gen.ReferenceIdeal
import proofs.«430539_j37323265802669_3_alg».proof.Proof.Gen.Pre_finite_inputs
import proofs.«430539_j37323265802669_3_alg».proof.Proof.Gen.KernelIdeal.Value
import proofs.«430539_j37323265802669_3_alg».proof.Proof.Gen.ReferenceIdeal.Run
import proofs.«430539_j37323265802669_3_alg».proof.Proof.Gen.ReferenceIdeal.Read
import proofs.«430539_j37323265802669_3_alg».proof.Proof.PoolSpec
import proofs.«430539_j37323265802669_3_alg».proof.Proof.RefPool
import proofs.«430539_j37323265802669_3_alg».proof.Proof.BlockProduct
import proofs.«430539_j37323265802669_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference terminates with its arguments unchanged: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the amplitudes and the table, the kernel's result array and the reference's both
    end at the pooled sum `∑ n, (x[b, n] * x[b, n]) * T[r, n]` of those arguments. -/
theorem algebraic : Cert.algebraic_KernelIdeal_ReferenceIdeal := by
  intro m ρ m' ρ' _ hagree
  refine ⟨_, Cert.Pool.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.Pool.Ref.reference_eq_pooled, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
